-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x4096x1024 .f32) (main_arg1 : FVec F S1024 .f32) (main_arg2 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x4096x1024 : Shape := ⟨3, ![8, 4096, 1024]⟩
abbrev S1024 : Shape := ⟨1, ![1024]⟩
abbrev S_ : Shape := ⟨0, ![]⟩
abbrev S1 : Shape := ⟨1, ![1]⟩
abbrev S32768x1024 : Shape := ⟨2, ![32768, 1024]⟩
abbrev S1024x1024 : Shape := ⟨2, ![1024, 1024]⟩
abbrev S1x1024 : Shape := ⟨2, ![1, 1024]⟩

abbrev nBuf : Space → Nat
  | .hbm => 23
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S32768x1024, .f32⟩
  | .hbm, ⟨21, _⟩ => ⟨S32768x1024, .f32⟩
  | .hbm, ⟨22, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S_S1024 : S_.BroadcastsInDim S1024 (![] : Fin 0 → Fin S1024.rank)
  shapeCasts_S8x4096x1024_S32768x1024 : S8x4096x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  shapeCasts_S32768x1024_S8x4096x1024 : S32768x1024.ShapeCasts S8x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S_ : Shape := ⟨0, ![]⟩
abbrev S1 : Shape := ⟨1, ![1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S1024_S_d0 : S1024.ReducesTo [0] S_
  h_S_ : 0 < S_.numel
  bcast_S_S1 : S_.BroadcastsInDim S1 (![] : Fin 0 → Fin S1.rank)
  bcast_S1_S1024_0 : S1.BroadcastsInDim S1024 (![0] : Fin 1 → Fin S1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)

variable [Facts₀]

class Facts : Prop extends Facts₀ where

variable [Facts]
-- ==== Proof.ChannelScale.lean ====
/-
  Scaling every channel of an array by a per-channel factor, in the two layouts the two programs use.

  The input is an array of 8 × 4096 rows of 1024 channels.  One program multiplies it, as a cube [8, 4096, 1024],
  by the factor vector spread along the two leading axes; the other flattens it to a matrix of 32768 rows, multiplies
  every row by the factor vector, and folds the matrix back into the cube.  Flattening keeps the row-major position, so
  row (b, r) of the cube is row b · 4096 + r of the matrix and the channel coordinate is untouched: both give
  x[b, r, d] · s[d].  Nothing here needs the factors or the entries to be finite — it is one product per entry.
-/
import Idealize.ShloMosaic.Lib.ValueIdx
import Idealize.ShloMosaic.Lib.Pipeline.Value

noncomputable section

namespace Cert.ChannelScale

open Idealize.ShloMosaic Idealize.ShloMosaic.ValueIdx

/-- The input as the programs receive it: 8 batches of 4096 rows of 1024 channels. -/
abbrev Cube : Shape := ⟨3, ![8, 4096, 1024]⟩
/-- The same rows laid one under another. -/
abbrev Rows : Shape := ⟨2, ![32768, 1024]⟩
/-- One factor per channel. -/
abbrev Chan : Shape := ⟨1, ![1024]⟩
/-- A tile of 1024 consecutive rows. -/
abbrev Tile : Shape := ⟨2, ![1024, 1024]⟩
/-- The factor vector as a one-row matrix. -/
abbrev OneRow : Shape := ⟨2, ![1, 1024]⟩

variable {α : Type}

/-- Every row of the matrix multiplied, channel by channel, by the factors. -/
def scaleRows (x : Rows.Idx → EReal) (s : Chan.Idx → EReal) : Rows.Idx → EReal :=
  fun i => x i * s (ix1 (i 1))

/-- Every row of the cube multiplied, channel by channel, by the factors. -/
def scaleCube (x : Cube.Idx → EReal) (s : Chan.Idx → EReal) : Cube.Idx → EReal :=
  fun i => x i * s (ix1 (i 2))

/-- Row r of batch b is row b · 4096 + r of the flattened matrix. -/
def rowOf (b : Fin 8) (r : Fin 4096) : Fin 32768 := ⟨b.val * 4096 + r.val, by omega⟩

/-- Entry (b, r, d) of the cube and entry (b · 4096 + r, d) of the matrix sit at the same row-major position. -/
theorem flat_pos (b : Fin 8) (r : Fin 4096) (d : Fin 1024) :
    (Rows.rowMajor (ix2 (rowOf b r) d)).val = (Cube.rowMajor (ix3 b r d)).val := by
  rw [Shape.rowMajor_val_two, Shape.rowMajor_val_three]
  rfl

/-- Flatten, scale the rows, fold back: the cube scaled. -/
theorem fold_scaleRows (x : Cube.Idx → EReal) (s : Chan.Idx → EReal) (h1 : Cube.ShapeCasts Rows) (h2 : Rows.ShapeCasts Cube) :
    shapeCast Cube (scaleRows (shapeCast Rows x h1) s) h2 = scaleCube x s := by
  funext i
  obtain ⟨b, r, d, rfl⟩ : ∃ (b : Fin 8) (r : Fin 4096) (d : Fin 1024), i = ix3 b r d := ⟨i 0, i 1, i 2, eq_ix3 i⟩
  rw [shapeCast_apply _ h2 (ix3 b r d) (ix2 (rowOf b r) d) (flat_pos b r d)]
  show shapeCast Rows x h1 (ix2 (rowOf b r) d) * s (ix1 d) = x (ix3 b r d) * s (ix1 d)
  rw [shapeCast_apply x h1 (ix2 (rowOf b r) d) (ix3 b r d) (flat_pos b r d).symm]

/-- The factor vector, made a one-row matrix and repeated down a tile, read at (p, q): factor q. -/
theorem spread_apply (v : Chan.Idx → α) (h1 : Chan.ShapeCasts OneRow) (h2 : OneRow.Broadcasts Tile) (p q : Fin 1024) :
    broadcastTo Tile (shapeCast OneRow v h1) h2 (ix2 p q) = v (ix1 q) := by
  refine (broadcastTo_apply (shapeCast OneRow v h1) h2 (ix2 p q) (ix2 (⟨0, Nat.one_pos⟩ : Fin 1) q) (fun a => ?_)).trans ?_
  · match a with
    | ⟨0, _⟩ => show 0 = if (1 : Nat) = 1 then 0 else p.val; rw [if_pos rfl]
    | ⟨1, _⟩ => show q.val = if (1024 : Nat) = 1 then 0 else q.val; rw [if_neg (by decide)]
  · refine shapeCast_apply v h1 (ix2 (⟨0, Nat.one_pos⟩ : Fin 1) q) (ix1 q) ?_
    rw [Shape.rowMajor_val_one, Shape.rowMajor_val_two]
    show q.val = 0 * 1024 + q.val
    omega

end Cert.ChannelScale

end
-- ==== Proof.RefSide.lean ====
/-
  The reference's result, read entry by entry.

  The reference computes the factor vector s (a softmax of one input, scaled, times another input), spreads it over the
  two leading axes of the cube and multiplies: entry (b, r, d) of its first result is x[b, r, d] · s[d], the cube scaled
  channel by channel.  Its second result is s itself.  The factor vector is carried as one unopened term: both programs
  compute it by the same operations, and nothing below depends on what it is.
-/
import proofs.«106318_j47983374630951_1_alg».proof.Proof.Gen.ReferenceIdeal.Run
import proofs.«106318_j47983374630951_1_alg».proof.Proof.Gen.ReferenceIdeal.Read
import proofs.«106318_j47983374630951_1_alg».proof.Proof.ChannelScale

noncomputable section

namespace Cert.ReferenceIdeal.CubeValue

open Cert.ReferenceIdeal Cert.ReferenceIdeal.Gen Cert.ReferenceIdeal.Read Cert.ChannelScale
open Idealize.ShloMosaic Idealize.ShloMosaic.ValueIdx

/-- The factor vector: the reference's second result as a function of the two vector inputs. -/
abbrev factors (a w : Chan.Idx → EReal) : Chan.Idx → EReal := val_main_v12 (F := Ideal) a w

/-- The reference's first result is the cube scaled by the factor vector. -/
theorem cube_eq (x : Cube.Idx → EReal) (a w : Chan.Idx → EReal) :
    val_main_v15 (F := Ideal) x a w = scaleCube x (factors a w) := by
  funext i
  rw [val_main_v15_apply, val_main_v14_apply, val_main_v13_apply]
  show x i * val_main_v12 (F := Ideal) a w (idx_main_v13 (idx_main_v14 i)) = x i * val_main_v12 (F := Ideal) a w (ix1 (i 2))
  have e : idx_main_v13 (idx_main_v14 i) = ix1 (i 2) := funext fun d => match d with | ⟨0, _⟩ => rfl
  exact congrArg (fun k => x i * val_main_v12 (F := Ideal) a w k) e

end Cert.ReferenceIdeal.CubeValue

end
-- ==== Proof.KernelTile.lean ====
/-
  What one grid point of the scaling kernel writes back, and the matrix the kernel leaves.

  The kernel walks the flattened matrix of 32768 rows in 32 tiles of 1024 rows.  At tile t it loads rows
  1024 t … 1024 t + 1023 and the whole factor vector, multiplies every loaded row by the factors, and stores the tile
  at the same rows of the output matrix.  Entry (p, q) of the stored tile is x[1024 t + p, q] · s[q]: the tile of ONE
  function of the whole matrix, `scaleRows x s`.  The 32 tiles cover every row, so the output matrix ends as that function.
-/
import proofs.«106318_j47983374630951_1_alg».proof.Proof.Gen.KernelIdeal.Frame
import proofs.«106318_j47983374630951_1_alg».proof.Proof.ChannelScale
import Idealize.ShloMosaic.Lib.Pipeline.Value
import Idealize.ShloMosaic.Lib.ValueIdx

set_option maxRecDepth 16384

noncomputable section

namespace Cert.KernelIdeal.TileValue

open Cert.KernelIdeal Cert.KernelIdeal.Gen Cert.ChannelScale
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The stored tile at entry (p, q): the loaded row entry times factor q. -/
theorem pay_apply (x0 : Vec Ideal S1024x1024 .f32) (x1 : Vec Ideal S1024 .f32) (p q : Fin 1024) :
    k0_pay1 x0 x1 (ix2 p q) = x0 (ix2 p q) * x1 (ix1 q) := by
  unfold k0_pay1
  show shapeCast S1024x1024 x0 _ (ix2 p q) * broadcastTo S1024x1024 (shapeCast S1x1024 (shapeCast S1024 x1 _) _) _ (ix2 p q) = _
  rw [shapeCast_self, shapeCast_self]
  exact congrArg (x0 (ix2 p q) * ·) (spread_apply x1 _ _ p q)

/-- The stored tile as a function of its entry. -/
theorem pay_eq (x0 : Vec Ideal S1024x1024 .f32) (x1 : Vec Ideal S1024 .f32) :
    k0_pay1 x0 x1 = fun j => x0 j * x1 (ix1 (j 1)) := by
  funext j
  obtain ⟨p, q, rfl⟩ : ∃ (p q : Fin 1024), j = ix2 p q := ⟨j 0, j 1, eq_ix2 j⟩
  exact pay_apply x0 x1 p q

/-- The tiles' places, decided over the 32 grid points: the input tile and the output tile of point t are the same
    rows 1024 t …, all 1024 channels; the factor vector is read whole. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 1) = 0
    ∧ win0_2.index t (0 : Fin 2) = t.val
    ∧ win0_2.index t (1 : Fin 2) = 0 :=
  (by decide +kernel : ∀ t : Fin grid0.N, _)

/-- The matrix the kernel reads and the factor vector it reads, as the launch finds them. -/
abbrev xmat (c : Dev nD) : Rows.Idx → EReal := V m c main_v13
abbrev fvec (c : Dev nD) : Chan.Idx → EReal := V m c main_v12

/-- WHAT POINT t WRITES BACK is tile t of the row-scaled matrix. -/
theorem flushed_eq (c : Dev nD) (t : Fin cfg0.N) :
    (dats m 0 c).flushed 2 t = ((cfg0.win 2).blk t).view.read (Elt Ideal) (scaleRows (xmat m c) (fvec m c)) := by
  show (cfg0.win 2).cut (grid0.coords t) ((dats m 0 c).after 2 t) = _
  rw [after0_2]
  unfold out0_2
  rw [View.canon_unit_zero zero2]
  simp only [View.ld_unit_zero (S := S1024x1024) zero2, View.ld_unit_zero (S := S1024) zero1]
  rw [pay_eq]
  obtain ⟨e0, e1, e2, e3, e4⟩ := idx_facts t
  funext j
  show xmat m c (((cfg0.win 0).blk t).view.emb j) * fvec m c (((cfg0.win 1).blk t).view.emb (ix1 (j 1)))
    = xmat m c (((cfg0.win 2).blk t).view.emb j) * fvec m c (ix1 ((((cfg0.win 2).blk t).view.emb j) 1))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * (j 1).val = win0_2.index t (1 : Fin 2) * 1024 + 1 * (j 1).val; omega
  have h1 : ((cfg0.win 1).blk t).view.emb (ix1 (j 1)) = ix1 ((((cfg0.win 2).blk t).view.emb j) 1) := by
    funext a; apply Fin.ext
    match a with
    | ⟨0, _⟩ =>
      show win0_1.index t (0 : Fin 1) * 1024 + 1 * (j 1).val = win0_2.index t (1 : Fin 2) * 1024 + 1 * (j 1).val
      omega
  exact congrArg₂ (fun a b => xmat m c a * fvec m c b) h0 h1

/-- A matrix entry lies in tile t iff each coordinate lies in the tile's range on its axis. -/
theorem mem_tile (t : Fin cfg0.N) (i : Rows.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v14).slice (win0_2.rect t)).set ↔ _
  rw [View.set_slice_whole, Rect.mem_set_unit]
  exact Iff.rfl

/-- Every row is in some tile: row R is in tile R / 1024. -/
theorem tiles_cover (i : Rows.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : cfg0.N = 32 := N_0
  let t : Fin cfg0.N := ⟨(i 0).val / 1024, by rw [hN]; omega⟩
  obtain ⟨-, -, -, e3, e4⟩ := idx_facts t
  have e3' : win0_2.index t (0 : Fin 2) = (i 0).val / 1024 := e3
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE OUTPUT MATRIX after the 32 points: every row of the input matrix scaled by the factor vector. -/
theorem out_matrix (c : Dev nD) : (dats m 0 c).arrAt 2 cfg0.N = scaleRows (xmat m c) (fvec m c) :=
  (dats m 0 c).arrAt_eq_of_cover 2 (scaleRows (xmat m c) (fvec m c)) (fun t _ => flushed_eq m c t) tiles_cover

end Cert.KernelIdeal.TileValue

end
-- ==== Proof.KernelRun.lean ====
/-
  The scaling program's run, read: what its two results hold at the end.

  Before the kernel the host computes the factor vector s from the two vector inputs and flattens the cube x into the
  matrix of 32768 rows; the kernel leaves the matrix with every row scaled by s; after it the host folds the matrix back
  into the cube.  So the first result is the cube scaled channel by channel, x[b, r, d] · s[d], and the second result,
  which the kernel only reads, is s.  The factor vector is the very term the reference computes, and is never opened.
-/
import proofs.«106318_j47983374630951_1_alg».proof.Proof.KernelTile
import proofs.«106318_j47983374630951_1_alg».proof.Proof.RefSide
import Idealize.ShloMosaic.Lib.StableHlo.Run

set_option maxRecDepth 16384

noncomputable section

namespace Cert.KernelIdeal.RunValue

open Cert.KernelIdeal Cert.KernelIdeal.Gen Cert.KernelIdeal.TileValue Cert.ChannelScale
open Idealize.ShloMosaic Idealize.ShloMosaic.TcCoe Idealize.ShloMosaic.ValueIdx Idealize.SL.Sem Idealize.ShloMosaic.StableHlo
open Idealize.ShloMosaic.Pipeline (Dat Cfg Window)
open Cert.ReferenceIdeal.CubeValue (factors)

variable (m : (ℓ : Loc nD τ sig) → Buf (Elt Ideal) ℓ) (ρ : Dev nD → PrngReg)

/-- The three inputs as the launch finds them. -/
abbrev xin (c : Dev nD) : Cube.Idx → EReal := m ((c : Thread nD τ).loc main_arg0)
abbrev ain (c : Dev nD) : Chan.Idx → EReal := m ((c : Thread nD τ).loc main_arg1)
abbrev win (c : Dev nD) : Chan.Idx → EReal := m ((c : Thread nD τ).loc main_arg2)

/-- The matrix the kernel reads is the input cube flattened. -/
theorem xmat_eq (c : Dev nD) : xmat m c = shapeCast Rows (xin m c) shapeCasts_S8x4096x1024_S32768x1024 := by
  show StableHlo.after hostOps0 (fun b => m (c, b)) (Proc.devRef .tc main_v13) = _
  after_results
  rfl

/-- The factor vector the kernel reads is the one the reference computes from the same two inputs. -/
theorem fvec_eq (c : Dev nD) : fvec m c = factors (ain m c) (win m c) := by
  show StableHlo.after hostOps0 (fun b => m (c, b)) (Proc.devRef .tc main_v12) = _
  after_results
  rfl

/-- After the kernel the host folds the output matrix back into the cube. -/
theorem cube_out (c : Dev nD) :
    Pipeline.afterTail₀ cfgs (dats m) 0 (V0 m) [hostOps1] c main_v15
      = shapeCast Cube ((dats m 0 c).arrAt 2 cfg0.N) shapeCasts_S32768x1024_S8x4096x1024 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = (dats m 0 c).arrAt 2 cfg0.N :=
    Pipeline.withArrays_arr spec0 launch0.win.arr_inj c _ _ 2
  rw [e]
  rfl

/-- The first result is the input cube scaled channel by channel by the factor vector. -/
theorem cube_result (c : Dev nD) :
    Pipeline.afterTail₀ cfgs (dats m) 0 (V0 m) [hostOps1] c main_v15 = scaleCube (xin m c) (factors (ain m c) (win m c)) := by
  rw [cube_out, out_matrix, xmat_eq, fvec_eq]
  exact fold_scaleRows _ _ _ _

/-- THE RUN: every weakly fair execution ends with the first result the scaled cube, the second the factor vector, and
    the three inputs as they were. -/
theorem run : θ_run defs (onTc (τ := τ) (main (F := Ideal))) ⟨m, fun _ => 0, ρ⟩ fun r => ∀ c : Dev nD,
      r.2.mem ((c : Thread nD τ).loc main_v15) = scaleCube (xin m c) (factors (ain m c) (win m c))
      ∧ r.2.mem ((c : Thread nD τ).loc main_v12) = factors (ain m c) (win m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v15 (Pipeline.mem_restRefs_of main_v15 (by decide) (by decide))).trans (cube_result m c),
      ((h c).1 1).trans (((dats m 0 c).arrAt_in 1 rfl _).trans ((A_eq m c 1).trans (fvec_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/-
  A learnable channel mask: the factor vector s = 1024 · softmax(mask_param) · _mask is computed on the host by the same
  operations in both programs, and x is multiplied by it channel by channel.  The kernel does the multiplication on the
  flattened matrix of 32768 rows, tile by tile of 1024 rows, and folds the result back into the cube; the reference
  multiplies the cube by s spread over its two leading axes.  At every entry both are x[b, r, d] · s[d] — one product, so
  the equality holds on all of the extended reals and finiteness of the inputs is never used; the second result is s on
  both sides.

  The kernel's side is Proof/KernelTile.lean (what a grid point writes back, and that the 32 tiles cover the matrix) and
  Proof/KernelRun.lean (the host operations before and after the kernel); the reference's side is Proof/RefSide.lean; the
  one piece of arithmetic, that flattening keeps rows and channels apart, is Proof/ChannelScale.lean.  No operation of the
  kernel changes when it is read over the extended reals, so the idealization has nothing to preserve.
-/
import proofs.«106318_j47983374630951_1_alg».proof.Defs
import proofs.«106318_j47983374630951_1_alg».proof.Proof.Gen.Kernel
import proofs.«106318_j47983374630951_1_alg».proof.Proof.Gen.Kernel.Skeleton
import proofs.«106318_j47983374630951_1_alg».proof.Proof.Gen.Kernel.Launch
import proofs.«106318_j47983374630951_1_alg».proof.Proof.Gen.Kernel.Points
import proofs.«106318_j47983374630951_1_alg».proof.Proof.Gen.Kernel.Frame
import proofs.«106318_j47983374630951_1_alg».proof.Proof.Gen.KernelIdeal
import proofs.«106318_j47983374630951_1_alg».proof.Proof.Gen.KernelIdeal.Skeleton
import proofs.«106318_j47983374630951_1_alg».proof.Proof.Gen.KernelIdeal.Launch
import proofs.«106318_j47983374630951_1_alg».proof.Proof.Gen.KernelIdeal.Points
import proofs.«106318_j47983374630951_1_alg».proof.Proof.Gen.KernelIdeal.Frame
import proofs.«106318_j47983374630951_1_alg».proof.Proof.Gen.ReferenceIdeal
import proofs.«106318_j47983374630951_1_alg».proof.Proof.Gen.ReferenceIdeal.Run
import proofs.«106318_j47983374630951_1_alg».proof.Proof.Gen.ReferenceIdeal.Read
import proofs.«106318_j47983374630951_1_alg».proof.Proof.Gen.Pre_finite_inputs
import proofs.«106318_j47983374630951_1_alg».proof.Proof.ChannelScale
import proofs.«106318_j47983374630951_1_alg».proof.Proof.RefSide
import proofs.«106318_j47983374630951_1_alg».proof.Proof.KernelTile
import proofs.«106318_j47983374630951_1_alg».proof.Proof.KernelRun
import Idealize.ShloMosaic.Adequacy
import Idealize.ShloMosaic.Init

noncomputable section

namespace Cert.Proof

open Idealize.ShloMosaic Idealize.ShloMosaic.TcCoe Idealize.SL.Sem
open Cert.ChannelScale Cert.ReferenceIdeal.CubeValue

/-- The word-level kernel terminates, faults nowhere and leaves its inputs alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories that agree on the three inputs, end with the cube scaled channel by channel by the
    factor vector, and with the factor vector. -/
theorem algebraic : Cert.algebraic_KernelIdeal_ReferenceIdeal := by
  intro m ρ m' ρ' _ hagree
  refine ⟨fun c => scaleCube (Cert.KernelIdeal.RunValue.xin m c) (factors (Cert.KernelIdeal.RunValue.ain m c) (Cert.KernelIdeal.RunValue.win m c)),
    fun c => factors (Cert.KernelIdeal.RunValue.ain m c) (Cert.KernelIdeal.RunValue.win m c),
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, cube_eq, (hagree c).1, (hagree c).2.1, (hagree c).2.2]
  · rw [(h c).2.1, Cert.ReferenceIdeal.Read.val_main_v12_eq, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
